-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x64 .f32) (main_arg1 : FVec F S100000x64 .f32) (main_arg2 : IVec S1600000 32) (main_arg3 : IVec S1600000 32) (main_arg4 : FVec F S1600000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S1600000x1 : Shape := ⟨2, ![1600000, 1]⟩
abbrev S_ : Shape := ⟨0, ![]⟩
abbrev S1600000x64 : Shape := ⟨2, ![1600000, 64]⟩
abbrev S10000x64 : Shape := ⟨2, ![10000, 64]⟩

abbrev nBuf : Space → Nat
  | .hbm => 22
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S1600000x1, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x64, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S1600000x1 : Shape := ⟨2, ![1600000, 1]⟩
abbrev S_ : Shape := ⟨0, ![]⟩
abbrev S1600000x64 : Shape := ⟨2, ![1600000, 64]⟩

abbrev nBuf : Space → Nat
  | .hbm => 31
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S1600000x1, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x64, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S100000x64, .f32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Layer.lean ====
/-
  One graph-convolution layer's closing step, as a function of arrays.

  Both programs first form the same aggregated array `hi` (row `r` is the sum, over the edges whose row
  index is `r`, of the edge's weight times the feature row its column index names) and then combine it
  with the initial features `f0` entry by entry:

      out[i] = max (a · hi[i] + b · f0[i], 0)

  where `a` and `b` are the two binary32 numbers with words `0x3F666666` and `0x3DCCCCCD` (the roundings
  of 9/10 and 1/10), and `0` is the word `0x00000000`. The same three words stand on both sides, so they
  are never evaluated: the statement below holds at every float instance, and no property of the
  extended reals is used.

  This module fixes that entrywise function (`mixEntry`, `mixRelu`) and shows that the two spellings the
  programs use for it — the host's whole-array operations over broadcast scalars, and a kernel block's
  vector operations over splatted scalars — are both `mixRelu`.
-/
import Idealize.ShloMosaic.Lib.Pipeline.Value

noncomputable section

namespace Cert.Layer

open Idealize.ShloMosaic

variable {F : FTy → Type} [FloatOps F]

/-- One entry of the layer's output from one entry `h` of the aggregated array and one entry `x` of the
    initial features: the larger of `a · h + b · x` and zero. -/
def mixEntry (h x : F .f32) : F .f32 :=
  FloatOps.maximumf
    (FloatOps.addf (FloatOps.mulf (FloatOps.ofBits .f32 0x3F666666#32) h)
      (FloatOps.mulf (FloatOps.ofBits .f32 0x3DCCCCCD#32) x))
    (FloatOps.ofBits .f32 0x00000000#32)

/-- The layer's output array over any shape: `mixEntry` entry by entry. -/
def mixRelu {s : Shape} (hi f0 : FVec F s .f32) : FVec F s .f32 := fun i => mixEntry (hi i) (f0 i)

/-- Reading `mixRelu` at an index. -/
theorem mixRelu_apply {s : Shape} (hi f0 : FVec F s .f32) (i : s.Idx) :
    mixRelu hi f0 i = mixEntry (hi i) (f0 i) := rfl

/-- The host's spelling: each weight is a rank-0 constant broadcast to the array's shape, the products,
    the sum and the maximum are whole-array operations. A broadcast rank-0 constant reads its one value at
    every index, so entry by entry this is `mixEntry`. -/
theorem host_spelling {s : Shape} (hb : (⟨0, ![]⟩ : Shape).BroadcastsInDim s ![]) (hi f0 : FVec F s .f32) :
    maximumf
        (addf (mulf (broadcastInDim s ![] hb (constant (F := F) ⟨0, ![]⟩ .f32 0x3F666666#32)) hi)
          (mulf (broadcastInDim s ![] hb (constant (F := F) ⟨0, ![]⟩ .f32 0x3DCCCCCD#32)) f0))
        (broadcastInDim s ![] hb (constant (F := F) ⟨0, ![]⟩ .f32 0x00000000#32))
      = mixRelu hi f0 := by
  funext i
  rfl

/-- A kernel block's spelling: each weight is a scalar splatted over the block, the first operand passes
    through a shape cast to its own shape (the identity), and the products, the sum and the maximum are
    vector operations. Entry by entry this is `mixEntry` again. -/
theorem block_spelling {s : Shape} (hc : s.ShapeCasts s) (x0 x1 : FVec F s .f32) :
    maximumf
        (addf (mulf (broadcast s (Scalar.ofBits (F := F) .f32 0x3F666666#32)) (shapeCast s x0 hc))
          (mulf (broadcast s (Scalar.ofBits (F := F) .f32 0x3DCCCCCD#32)) x1))
        (broadcast s (Scalar.ofBits (F := F) .f32 0x00000000#32))
      = mixRelu x0 x1 := by
  rw [shapeCast_self]
  rfl

end Cert.Layer

end
-- ==== Proof.KernelArray.lean ====
/-
  What the idealized kernel leaves in its result array, as one function of the argument arrays.

  The program first forms, by host operations, the aggregated array `hi` (a scatter-add of the weighted,
  gathered feature rows; `aggregate` below names that term once and nothing here ever opens it), and
  then one pipelined call walks the 100000 × 64 arrays `hi` and `f0` in ten blocks of 10000 whole rows.
  At grid point `t` all three windows sit on the same block — rows `10000·t … 10000·t + 9999`, all 64
  columns — and the body writes, entry by entry, `max (a · hi + b · f0, 0)` of what it loaded
  (`Cert.Layer.mixRelu` on the block). Since the ten blocks tile the array, the result array ends
  holding `mixRelu hi f0` on the whole arrays.
-/
import proofs.«148250_j85727547228210_1_alg».proof.Proof.Gen.KernelIdeal.Value
import proofs.«148250_j85727547228210_1_alg».proof.Proof.Layer
import Idealize.ShloMosaic.Lib.StableHlo.Run

noncomputable section

namespace Cert.KernelIdeal.Array

open Cert.KernelIdeal Cert.KernelIdeal.Gen Idealize.ShloMosaic Idealize.ShloMosaic.TcCoe Idealize.SL.Sem
open Idealize.ShloMosaic.StableHlo
open Idealize.ShloMosaic.Pipeline (Dat)
open Cert.Layer

variable {F : FTy → Type} [FloatOps F]

/-! ## The aggregated array -/

/-- The aggregated array as a function of the feature array `x`, the edges' row indices `rows`, column
    indices `cols` and weights `w`: a column index below zero is first moved up by 100000; the feature
    rows the column indices name are gathered; each gathered row is multiplied by its edge's weight; and
    the products are added into a zero array at the rows the row indices name. -/
def aggregate (x : (⟨S100000x64, .f32⟩ : BufTy).Contents (Elt F)) (rows cols : (⟨S1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 rows)
    (mulf (broadcastInDim S1600000x64 ![0, 1] bcast_S1600000x1_S1600000x64_0_1 (broadcastInDim S1600000x1 ![0] bcast_S1600000_S1600000x1_0 w))
      (Host.gather gather_S100000x64_S1600000x1_S1600000x64_1_0_n_n_0_1_164 x
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

variable (m : (ℓ : Loc nD τ sig) → Buf (Elt F) ℓ) (ρ : Dev nD → PrngReg)

/-- When the call is entered, the buffer the first window stages holds the aggregated array of the
    arguments: the sixteen host operations before the call, composed. -/
theorem entry_aggregate (c : Dev nD) :
    (V m c main_v12 : (⟨S100000x64, .f32⟩ : BufTy).Contents (Elt F))
      = aggregate (m ((c.tc : Thread nD τ).loc main_arg0)) (m ((c.tc : Thread nD τ).loc main_arg2)) (m ((c.tc : Thread nD τ).loc main_arg3)) (m ((c.tc : Thread nD τ).loc main_arg4)) := by
  dsimp only [V, hostOps0]
  after_results
  rfl

/-! ## One block -/

theorem origin : (![0, 0] : Fin 2 → Nat) = fun _ => 0 := funext fun a => by fin_cases a <;> rfl

/-- The body's one stored value is `mixRelu` of the two blocks it loaded. -/
theorem payload_eq (x0 x1 : Vec F S10000x64 .f32) : k0_pay1 x0 x1 = mixRelu (s := S10000x64) x0 x1 :=
  (Value.lay2_0_eq x0 x1).trans (block_spelling shapeCasts_S10000x64_S10000x64 x0 x1)

/-- The three index maps, decided over the ten grid points: the two input windows sit on the output
    window's block, and that block starts at column 0. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Each of the ten row blocks is some grid point's. -/
theorem every_row_block : ∀ q : Fin 10, ∃ t : Fin cfg0.N, win0_2.index t = ![q.val, 0] :=
  (by decide +kernel : ∀ q : Fin 10, ∃ t : Fin grid0.N, win0_2.index t = ![q.val, 0])

/-- What grid point `t` writes back is block `t` of `mixRelu hi f0`, with `hi` and `f0` the two staged
    arrays as the call finds them: an input block is its array read through the output's rectangle. -/
theorem flushed_eq (c : Dev nD) (t : Fin cfg0.N) :
    (dats m 0 c).flushed 2 t
      = ((cfg0.win 2).blk t).view.read (Elt F) (mixRelu (s := S100000x64) (V m c main_v12) (V m c main_arg1)) := by
  rw [Value.flushed2]
  unfold out0_2
  rw [View.canon_unit_zero origin]
  simp only [View.ld_unit_zero (S := S10000x64) origin]
  rw [payload_eq]
  obtain ⟨e0, e1, e2, e3⟩ := same_block t
  funext j
  show mixEntry (V m c main_v12 (((cfg0.win 0).blk t).view.emb j)) (V m c main_arg1 (((cfg0.win 1).blk t).view.emb j))
    = mixEntry (V m c main_v12 (((cfg0.win 2).blk t).view.emb j)) (V m c main_arg1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 64 + 1 * (j 1).val = win0_2.index t (1 : Fin 2) * 64 + 1 * (j 1).val; omega
  rw [h0, h1]

/-! ## The blocks tile the array -/

/-- An index of the array lies in point `t`'s block iff each coordinate lies in the block's range. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v13).slice (win0_2.rect t)).set ↔ _
  rw [View.set_slice_whole, Rect.mem_set_unit]
  exact Iff.rfl

/-- Row `r` of the array lies in the block of the point whose block index is `r / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := every_row_block ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the run: `mixRelu` of the two staged arrays as the call finds them. -/
theorem final_staged (c : Dev nD) :
    (dats m 0 c).arrAt 2 cfg0.N = mixRelu (s := S100000x64) (V m c main_v12) (V m c main_arg1) :=
  (dats m 0 c).arrAt_eq_of_cover 2 _ (fun t _ => flushed_eq m c t) covered

/-- The same, over the arguments as launched: the first staged array is their aggregate, the second is
    the initial-features argument, which no host operation writes. -/
theorem final (c : Dev nD) :
    (dats m 0 c).arrAt 2 cfg0.N
      = mixRelu (s := S100000x64) (aggregate (m ((c.tc : Thread nD τ).loc main_arg0)) (m ((c.tc : Thread nD τ).loc main_arg2)) (m ((c.tc : Thread nD τ).loc main_arg3)) (m ((c.tc : Thread nD τ).loc main_arg4)))
          (m ((c.tc : Thread nD τ).loc main_arg1)) := by
  rw [final_staged, entry_aggregate, V_main_arg1]

/-! ## The run, read -/

/-- Every weakly fair execution of the idealized kernel ends with the result array at `mixRelu` of the
    arguments' aggregate and the initial features, the arguments unchanged. -/
theorem run : θ_run defs (onTc (τ := τ) (main (F := F))) ⟨m, fun _ => 0, ρ⟩ fun r => ∀ c : Dev nD,
      r.2.mem ((c : Thread nD τ).loc main_v13)
        = mixRelu (s := S100000x64) (aggregate (m ((c.tc : Thread nD τ).loc main_arg0)) (m ((c.tc : Thread nD τ).loc main_arg2)) (m ((c.tc : Thread nD τ).loc main_arg3)) (m ((c.tc : Thread nD τ).loc main_arg4)))
            (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Array

end
-- ==== Proof.ReferenceArray.lean ====
/-
  What the idealized reference leaves in its result array, as one function of the argument arrays.

  The reference is host operations only. Its first sixteen form the aggregated array (`aggregate` below:
  the same gather, weighting and scatter-add as in the kernel program, named once and never opened); the
  remaining ten broadcast the two weights and zero, and take the products, the sum and the maximum over
  the whole 100000 × 64 array. Entry by entry that is `Cert.Layer.mixRelu` of the aggregate and the
  initial features.
-/
import proofs.«148250_j85727547228210_1_alg».proof.Proof.Gen.ReferenceIdeal.Run
import proofs.«148250_j85727547228210_1_alg».proof.Proof.Layer

noncomputable section

namespace Cert.ReferenceIdeal.Array

open Cert.ReferenceIdeal Cert.ReferenceIdeal.Gen Idealize.ShloMosaic Idealize.ShloMosaic.TcCoe Idealize.SL.Sem
open Cert.Layer

variable {F : FTy → Type} [FloatOps F]

/-- The aggregated array as a function of the feature array `x`, the edges' row indices `rows`, column
    indices `cols` and weights `w`: a column index below zero is first moved up by 100000; the feature
    rows the column indices name are gathered; each gathered row is multiplied by its edge's weight; and
    the products are added into a zero array at the rows the row indices name. -/
def aggregate (x : (⟨S100000x64, .f32⟩ : BufTy).Contents (Elt F)) (rows cols : (⟨S1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 rows)
    (mulf (broadcastInDim S1600000x64 ![0, 1] bcast_S1600000x1_S1600000x64_0_1 (broadcastInDim S1600000x1 ![0] bcast_S1600000_S1600000x1_0 w))
      (Host.gather gather_S100000x64_S1600000x1_S1600000x64_1_0_n_n_0_1_164 x
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

variable (m : (ℓ : Loc nD τ sig) → Buf (Elt F) ℓ) (ρ : Dev nD → PrngReg)

/-- Every weakly fair execution of the idealized reference ends with the result array at `mixRelu` of the
    arguments' aggregate and the initial features, the arguments unchanged: the generated run's composed
    term is the host spelling of `mixRelu` over the aggregate. -/
theorem run : θ_run defs (onTc (τ := τ) (main (F := F))) ⟨m, fun _ => 0, ρ⟩ fun r => ∀ c : Dev nD,
      r.2.mem ((c.tc : Thread nD τ).loc main_v18)
        = mixRelu (s := S100000x64) (aggregate (m ((c.tc : Thread nD τ).loc main_arg0)) (m ((c.tc : Thread nD τ).loc main_arg2)) (m ((c.tc : Thread nD τ).loc main_arg3)) (m ((c.tc : Thread nD τ).loc main_arg4)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans (host_spelling (s := S100000x64) bcast_S_S100000x64 _ _), (h c).2⟩)
    (Value.run (F := F) m ρ)

end Cert.ReferenceIdeal.Array

end
-- ==== Proof.lean ====
/-
  The two programs compute one function.

  Both form the same aggregated array from the features, the edges' row and column indices and the
  edges' weights — a gather of feature rows, a product with the weights, a scatter-add by row — by the
  same host operations, and both then take `max (a · hi + b · f0, 0)` entry by entry with the same two
  binary32 weights: the kernel in ten pipelined blocks of 10000 rows (Proof/KernelArray.lean), the
  reference as whole-array host operations (Proof/ReferenceArray.lean). So the results are equal entry
  by entry at every float instance; nothing about the extended reals is used, the finiteness
  precondition is never opened, and the aggregate is never evaluated.

  The kernel's two frames are the generated ones; the reference's frame is its generated run with the
  result dropped; the idealization rewrote no operation, so there is nothing to preserve.
-/
import proofs.«148250_j85727547228210_1_alg».proof.Defs
import proofs.«148250_j85727547228210_1_alg».proof.Proof.Gen.Kernel
import proofs.«148250_j85727547228210_1_alg».proof.Proof.Gen.Kernel.Skeleton
import proofs.«148250_j85727547228210_1_alg».proof.Proof.Gen.Kernel.Launch
import proofs.«148250_j85727547228210_1_alg».proof.Proof.Gen.Kernel.Points
import proofs.«148250_j85727547228210_1_alg».proof.Proof.Gen.Kernel.Frame
import proofs.«148250_j85727547228210_1_alg».proof.Proof.Gen.KernelIdeal
import proofs.«148250_j85727547228210_1_alg».proof.Proof.Gen.KernelIdeal.Skeleton
import proofs.«148250_j85727547228210_1_alg».proof.Proof.Gen.KernelIdeal.Launch
import proofs.«148250_j85727547228210_1_alg».proof.Proof.Gen.KernelIdeal.Points
import proofs.«148250_j85727547228210_1_alg».proof.Proof.Gen.KernelIdeal.Frame
import proofs.«148250_j85727547228210_1_alg».proof.Proof.Gen.ReferenceIdeal
import proofs.«148250_j85727547228210_1_alg».proof.Proof.Gen.Pre_finite_inputs
import proofs.«148250_j85727547228210_1_alg».proof.Proof.Gen.KernelIdeal.Value
import proofs.«148250_j85727547228210_1_alg».proof.Proof.Gen.ReferenceIdeal.Run
import proofs.«148250_j85727547228210_1_alg».proof.Proof.KernelArray
import proofs.«148250_j85727547228210_1_alg».proof.Proof.ReferenceArray
import Idealize.ShloMosaic.Adequacy
import Idealize.ShloMosaic.Init

noncomputable section

namespace Cert.Proof

open Idealize.ShloMosaic Idealize.SL.Sem

/-- The two programs' aggregates are one function of the four arrays: the same operations over the same
    shapes and dimension records, spelt once in each program's namespace. -/
theorem aggregate_eq (x : (⟨Cert.KernelIdeal.S100000x64, .f32⟩ : BufTy).Contents (Elt Ideal))
    (rows cols : (⟨Cert.KernelIdeal.S1600000, .i32⟩ : BufTy).Contents (Elt Ideal))
    (w : (⟨Cert.KernelIdeal.S1600000, .f32⟩ : BufTy).Contents (Elt Ideal)) :
    Cert.ReferenceIdeal.Array.aggregate (F := Ideal) x rows cols w
      = Cert.KernelIdeal.Array.aggregate (F := Ideal) x rows cols w := rfl

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments, both runs end with the result array at `mixRelu` of the
    arguments' aggregate and the initial features. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Array.run (F := Ideal) m ρ, ?_⟩
  refine (θ_run Cert.ReferenceIdeal.defs _ _).mono (fun _ h c => ⟨(h c).1.trans ?_, (h c).2⟩)
    (Cert.ReferenceIdeal.Array.run (F := Ideal) m' ρ')
  rw [(hagree c).1, (hagree c).2.1, (hagree c).2.2.1, (hagree c).2.2.2.1, (hagree c).2.2.2.2]
  exact congrArg (fun a => Cert.Layer.mixRelu (s := Cert.KernelIdeal.S100000x64) a _) (aggregate_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
